-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S64x128 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1703936 : Shape := ⟨1, ![1703936]⟩
abbrev S1700000x128 : Shape := ⟨2, ![1700000, 128]⟩
abbrev S1703936x128 : Shape := ⟨2, ![1703936, 128]⟩
abbrev S4096x128 : Shape := ⟨2, ![4096, 128]⟩
abbrev S4096 : Shape := ⟨1, ![4096]⟩
abbrev S4096x1 : Shape := ⟨2, ![4096, 1]⟩
abbrev S100000x64 : Shape := ⟨2, ![100000, 64]⟩
abbrev S2000x128 : Shape := ⟨2, ![2000, 128]⟩
abbrev S2000x64 : Shape := ⟨2, ![2000, 64]⟩
abbrev S1x64 : Shape := ⟨2, ![1, 64]⟩

abbrev nBuf : Space → Nat
  | .hbm => 102
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S_, .f32⟩
  | .hbm, ⟨46, _⟩ => ⟨S1703936, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .i32⟩
  | .hbm, ⟨57, _⟩ => ⟨S_, .f32⟩
  | .hbm, ⟨58, _⟩ => ⟨S1703936x128, .f32⟩
  | .hbm, ⟨59, _⟩ => ⟨S1703936x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S_, .i32⟩
  | .hbm, ⟨75, _⟩ => ⟨S_, .f32⟩
  | .hbm, ⟨76, _⟩ => ⟨S1703936x128, .f32⟩
  | .hbm, ⟨77, _⟩ => ⟨S1703936x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S_, .i32⟩
  | .hbm, ⟨93, _⟩ => ⟨S_, .f32⟩
  | .hbm, ⟨94, _⟩ => ⟨S1703936x128, .f32⟩
  | .hbm, ⟨95, _⟩ => ⟨S1703936x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S100000x64, .f32⟩
  | .local _ .vmem, ⟨0, _⟩ => ⟨S4096x128, .f32⟩
  | .local _ .vmem, ⟨1, _⟩ => ⟨S4096x128, .f32⟩
  | .local _ .vmem, ⟨2, _⟩ => ⟨S4096, .f32⟩
  | .local _ .vmem, ⟨3, _⟩ => ⟨S4096, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096, .f32⟩
  | .local _ .vmem, ⟨9, _⟩ => ⟨S4096, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096, .f32⟩
  | .local _ .vmem, ⟨15, _⟩ => ⟨S4096, .f32⟩
  | .local _ .vmem, ⟨16, _⟩ => ⟨S4096x128, .f32⟩
  | .local _ .vmem, ⟨17, _⟩ => ⟨S4096x128, .f32⟩
  | .local _ .vmem, ⟨18, _⟩ => ⟨S2000x128, .f32⟩
  | .local _ .vmem, ⟨19, _⟩ => ⟨S2000x128, .f32⟩
  | .local _ .vmem, ⟨20, _⟩ => ⟨S64x128, .f32⟩
  | .local _ .vmem, ⟨21, _⟩ => ⟨S64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_call1_v0 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_call3_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_c_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_call4_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![416], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![416], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![416], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1703936_039360 : S1700000.Pads (![0] : Fin 1 → Nat) ![3936] ![0] S1703936
  h_S_ : 0 < S_.numel
  pads_S1700000x128_S1703936x128_039360_000 : S1700000x128.Pads (![0, 0] : Fin 2 → Nat) ![3936, 0] ![0, 0] S1703936x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x128 : S4096x1.Broadcasts S4096x128
  slices_S1703936x128_S1700000x128_0_0 : S1703936x128.Slices ![0, 0] S1700000x128
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S64x128_S2000x64_1_1_0_0_n_n_wf : DotDims.WF S2000x128 S64x128 S2000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1703936x128.size a
  hwx0_0 : ∀ i : grid0.Coords, EltTy.bits .f32 = 32 ∨ (Rect.block (s := S1703936x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1703936.size a
  hwx0_1 : ∀ i : grid0.Coords, EltTy.bits .f32 = 32 ∨ (Rect.block (s := S1703936) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S1703936x128.size a
  hwx0_2 : ∀ i : grid0.Coords, EltTy.bits .f32 = 32 ∨ (Rect.block (s := S1703936x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1703936x128.size a
  hwx1_0 : ∀ i : grid1.Coords, EltTy.bits .f32 = 32 ∨ (Rect.block (s := S1703936x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1703936.size a
  hwx1_1 : ∀ i : grid1.Coords, EltTy.bits .f32 = 32 ∨ (Rect.block (s := S1703936) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S1703936x128.size a
  hwx1_2 : ∀ i : grid1.Coords, EltTy.bits .f32 = 32 ∨ (Rect.block (s := S1703936x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S1703936x128.size a
  hwx2_0 : ∀ i : grid2.Coords, EltTy.bits .f32 = 32 ∨ (Rect.block (s := S1703936x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096.size a ≤ S1703936.size a
  hwx2_1 : ∀ i : grid2.Coords, EltTy.bits .f32 = 32 ∨ (Rect.block (s := S1703936) S4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S1703936x128.size a
  hwx2_2 : ∀ i : grid2.Coords, EltTy.bits .f32 = 32 ∨ (Rect.block (s := S1703936x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S64x128_S2000x64_1_1_0_0_n_n : DotDims S2000x128 S64x128 S2000x64 where
  lhsContracting := [1]
  rhsContracting := [1]
  lhsNonContracting := [0]
  rhsNonContracting := [0]
  lhsBatch := []
  rhsBatch := []
  wf := dot_S2000x128_S64x128_S2000x64_1_1_0_0_n_n_wf

abbrev win0_0 : Pipeline.Window sig grid0 :=
  Pipeline.Window.ofSpec (Memref.whole main_v38) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S128x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.StagesEntry.lean ====
/-
  The host operations before the first region, read stretch by stretch: what the first propagation hop finds when it is entered.
  The kernel's @main and the reference begin with the same operations: the two index vectors (the edges' sources and
  targets, each followed by the self loops `0 … n−1`), the degree of every node as a scatter-add of ones, its inverse square
  root where the degree is positive, and the weight of an edge as the product of its two ends' values. So at the first
  region's entry the source and target vectors and the weights are the reference's own stages of the edge array, and the
  rows the hop gathers are the reference's gathered rows; the kernel only pads the weights and the rows to a whole number
  of blocks. Each stretch is read with the contents before it kept as one unknown, so that no step opens an earlier stretch.
-/
import proofs.«150529_j27504970563787_1_alg».proof.Proof.Gen.KernelIdeal.Frame
import proofs.«150529_j27504970563787_1_alg».proof.Proof.RefStages
import Idealize.ShloMosaic.Lib.StableHlo.Run

set_option maxRecDepth 16384

noncomputable section

namespace Cert.Sgc.Entry

open Idealize.ShloMosaic Idealize.ShloMosaic.TcCoe Idealize.SL.Sem Idealize.ShloMosaic.StableHlo Cert.KernelIdeal Cert.KernelIdeal.Gen
open Cert.ReferenceIdeal.Read (val_main_v5 val_main_v6 val_main_v12 val_main_v13 val_main_cst_2 val_main_v14 val_main_v29 val_main_v37)

variable (m : (ℓ : Loc nD τ sig) → Buf (Elt Ideal) ℓ) (ρ : Dev nD → PrngReg) (c : Dev nD)

/-- The node features as launched, typed as the reference's stages take them. -/
abbrev a0 : (⟨Cert.ReferenceIdeal.S100000x128, .f32⟩ : BufTy).Contents (Elt Ideal) := m ((c : Thread nD τ).loc main_arg0)
/-- The edge array as launched. -/
abbrev a1 : (⟨Cert.ReferenceIdeal.S2x1600000, .i32⟩ : BufTy).Contents (Elt Ideal) := m ((c : Thread nD τ).loc main_arg1)

/-- The weights padded with `v` to a whole number of blocks. -/
abbrev padW (x : FVec Ideal S1700000 .f32) (v : FVec Ideal S_ .f32) : FVec Ideal S1703936 .f32 :=
  pad S1703936 ![0] ![3936] ![0] x v Facts₀.pads_S1700000_S1703936_039360 Facts₀.h_S_
/-- The gathered rows padded with `v` to a whole number of blocks. -/
abbrev padR (x : FVec Ideal S1700000x128 .f32) (v : FVec Ideal S_ .f32) : FVec Ideal S1703936x128 .f32 :=
  pad S1703936x128 ![0, 0] ![3936, 0] ![0, 0] x v Facts₀.pads_S1700000x128_S1703936x128_039360_000 Facts₀.h_S_

/-! ## After the first stretch: the index vectors, and the two operands of the `where` -/

set_option maxHeartbeats 2000000 in
/-- The sources followed by the self loops. -/
theorem src1 : W1 (F := Ideal) m ρ c (Proc.devRef .tc main_v5) = val_main_v5 (F := Ideal) (a1 m c) := by
  dsimp only [W1, W0]; after_results; rfl

set_option maxHeartbeats 2000000 in
/-- The targets followed by the self loops. -/
theorem dst1 : W1 (F := Ideal) m ρ c (Proc.devRef .tc main_v6) = val_main_v6 (F := Ideal) (a1 m c) := by
  dsimp only [W1, W0]; after_results; rfl

set_option maxHeartbeats 2000000 in
/-- Where the degree is positive. -/
theorem pos1 : W1 (F := Ideal) m ρ c (Proc.devRef .tc main_v12) = val_main_v12 (F := Ideal) (a1 m c) := by
  dsimp only [W1, W0]; after_results; rfl

set_option maxHeartbeats 2000000 in
/-- The inverse square root of the degree. -/
theorem rsq1 : W1 (F := Ideal) m ρ c (Proc.devRef .tc main_v13) = val_main_v13 (F := Ideal) (a1 m c) := by
  dsimp only [W1, W0]; after_results; rfl

set_option maxHeartbeats 2000000 in
/-- The zero the `where` falls back to. -/
theorem zero1 : W1 (F := Ideal) m ρ c (Proc.devRef .tc main_cst_2) = val_main_cst_2 (F := Ideal) := by
  dsimp only [W1, W0]; after_results; rfl

/-! ## After the `where`: the per-node factor -/

set_option maxHeartbeats 400000 in
theorem src2 : W2 (F := Ideal) m ρ c (Proc.devRef .tc main_v5) = val_main_v5 (F := Ideal) (a1 m c) := by
  dsimp only [W2, W1, W0]; after_results; rfl

set_option maxHeartbeats 400000 in
theorem dst2 : W2 (F := Ideal) m ρ c (Proc.devRef .tc main_v6) = val_main_v6 (F := Ideal) (a1 m c) := by
  dsimp only [W2, W1, W0]; after_results; rfl

set_option maxHeartbeats 400000 in
/-- The inverse square root of the degree where it is positive, zero elsewhere. -/
theorem dinv2 : W2 (F := Ideal) m ρ c (Proc.devRef .tc main_v14) = val_main_v14 (F := Ideal) (a1 m c) := by
  dsimp only [W2]
  have h12 := pos1 m ρ c
  have h13 := rsq1 m ρ c
  have hz := zero1 m ρ c
  generalize W1 (F := Ideal) m ρ c = U at h12 h13 hz ⊢
  after_results_simp
  simp only [TRef.ofBuf, TRef.toBuf, cast_eq]
  rw [h12, h13, hz]
  all_goals rfl

/-! ## After the second plain stretch: the edge weights -/

set_option maxHeartbeats 400000 in
/-- The weight of an edge: the product of its two ends' factors. -/
theorem norm3 : W3 (F := Ideal) m ρ c (Proc.devRef .tc main_v29) = val_main_v29 (F := Ideal) (a1 m c) := by
  dsimp only [W3]
  have h14 := dinv2 m ρ c
  have h5 := src2 m ρ c
  have h6 := dst2 m ρ c
  generalize W2 (F := Ideal) m ρ c = U at h14 h5 h6 ⊢
  after_results_simp
  rw [h14, h5, h6]
  all_goals rfl

/-! ## After the weights' padding -/

set_option maxHeartbeats 400000 in
/-- The weights, padded (with the converted integer zero the stretch before left). -/
theorem wts4 : W4 (F := Ideal) m ρ c (Proc.devRef .tc main_v30)
    = padW (val_main_v29 (F := Ideal) (a1 m c)) (sitofp (F := Ideal) .f32 (W3 (F := Ideal) m ρ c (Proc.devRef .tc main_c_6))) := by
  dsimp only [W4]
  have h29 := norm3 m ρ c
  generalize W3 (F := Ideal) m ρ c = U at h29 ⊢
  after_results_simp
  simp only [TRef.ofBuf, TRef.toBuf, cast_eq]
  rw [h29]
  all_goals rfl

set_option maxHeartbeats 400000 in
theorem src4 : W4 (F := Ideal) m ρ c (Proc.devRef .tc main_v5) = val_main_v5 (F := Ideal) (a1 m c) := by
  dsimp only [W4, W3, W2, W1, W0]; after_results; rfl

set_option maxHeartbeats 400000 in
/-- No host operation writes an argument: the features are still as launched. -/
theorem feats4 : W4 (F := Ideal) m ρ c (Proc.devRef .tc main_arg0) = a0 m c := by
  dsimp only [W4, W3, W2, W1, W0]; after_results

/-! ## After the third plain stretch: the rows the first hop gathers -/

set_option maxHeartbeats 400000 in
/-- The features' rows at the edges' sources. -/
theorem gath5 : W5 (F := Ideal) m ρ c (Proc.devRef .tc main_v37) = val_main_v37 (F := Ideal) (a0 m c) (a1 m c) := by
  dsimp only [W5]
  have h5 := src4 m ρ c
  have h0 := feats4 m ρ c
  generalize W4 (F := Ideal) m ρ c = U at h5 h0 ⊢
  after_results_simp
  rw [h5, h0]
  all_goals rfl

/-! ## At the first region's entry -/

set_option maxHeartbeats 400000 in
/-- The gathered rows, padded. -/
theorem rows6 : W6 (F := Ideal) m ρ c (Proc.devRef .tc main_v38)
    = padR (val_main_v37 (F := Ideal) (a0 m c) (a1 m c)) (sitofp (F := Ideal) .f32 (W5 (F := Ideal) m ρ c (Proc.devRef .tc main_c_9))) := by
  dsimp only [W6]
  have h37 := gath5 m ρ c
  generalize W5 (F := Ideal) m ρ c = U at h37 ⊢
  after_results_simp
  simp only [TRef.ofBuf, TRef.toBuf, cast_eq]
  rw [h37]
  all_goals rfl

set_option maxHeartbeats 400000 in
/-- The padded weights are not written again before the region. -/
theorem wts6 : W6 (F := Ideal) m ρ c (Proc.devRef .tc main_v30) = W4 (F := Ideal) m ρ c (Proc.devRef .tc main_v30) := by
  dsimp only [W6, W5]
  generalize W4 (F := Ideal) m ρ c = U
  after_results_simp

set_option maxHeartbeats 400000 in
theorem src6 : W6 (F := Ideal) m ρ c (Proc.devRef .tc main_v5) = val_main_v5 (F := Ideal) (a1 m c) := by
  dsimp only [W6, W5, W4, W3, W2, W1, W0]; after_results; rfl

set_option maxHeartbeats 400000 in
theorem dst6 : W6 (F := Ideal) m ρ c (Proc.devRef .tc main_v6) = val_main_v6 (F := Ideal) (a1 m c) := by
  dsimp only [W6, W5, W4, W3, W2, W1, W0]; after_results; rfl

end Cert.Sgc.Entry

end
-- ==== Proof.Spec.lean ====
/-
  The two whole-array functions the kernel's regions compute, read at the exact instance (a float is an extended real).
  A propagation hop sends along every edge the source row scaled by the edge's weight: `scaleRows`. The last stage maps
  every node's row `h[r, ·]` to `Σ_k h[r, k] · W[o, k] + b[o]`: `affineRows`. Both are stated index by index over literal
  shapes, for any extents; nothing here mentions a program.
-/
import Idealize.ShloMosaic.PureOps.Ideal.Laws
import Idealize.ShloMosaic.Lib.ValueIdx

noncomputable section

namespace Cert.Sgc

open Idealize.ShloMosaic Idealize.ShloMosaic.ValueIdx

/-- Row `e` of an `[E, C]` array times the `e`-th entry of a weight vector: the message edge `e` carries. -/
def scaleRows {E C : ℕ} (g : FVec Ideal ⟨2, ![E, C]⟩ .f32) (w : FVec Ideal ⟨1, ![E]⟩ .f32) : FVec Ideal ⟨2, ![E, C]⟩ .f32 :=
  fun i => g i * w (ix1 (i 0))

theorem scaleRows_apply {E C : ℕ} (g : FVec Ideal ⟨2, ![E, C]⟩ .f32) (w : FVec Ideal ⟨1, ![E]⟩ .f32) (e : Fin E) (j : Fin C) :
    scaleRows g w (ix2 e j) = g (ix2 e j) * w (ix1 e) := rfl

/-- The affine map of every row: entry `(r, o)` is `Σ_k h[r, k] · W[o, k] + b[o]` (the weight matrix is contracted along
    its own second axis: `h Wᵀ + b`). -/
def affineRows {N K O : ℕ} (h : FVec Ideal ⟨2, ![N, K]⟩ .f32) (W : FVec Ideal ⟨2, ![O, K]⟩ .f32) (b : FVec Ideal ⟨1, ![O]⟩ .f32) :
    FVec Ideal ⟨2, ![N, O]⟩ .f32 :=
  fun i => (∑ k : Fin K, h (ix2 (i 0) k) * W (ix2 (i 1) k)) + b (ix1 (i 1))

theorem affineRows_apply {N K O : ℕ} (h : FVec Ideal ⟨2, ![N, K]⟩ .f32) (W : FVec Ideal ⟨2, ![O, K]⟩ .f32) (b : FVec Ideal ⟨1, ![O]⟩ .f32)
    (r : Fin N) (o : Fin O) : affineRows h W b (ix2 r o) = (∑ k : Fin K, h (ix2 r k) * W (ix2 o k)) + b (ix1 o) := rfl

end Cert.Sgc

end
-- ==== Proof.LibKeepdims.lean ====
/-
  Layout operations of a `keepdims` row reduction read at an index given by coordinates — the column forms beside the
  library's row forms: a vector `[a]` cast to the column `[a, 1]`, a column `[a, 1]` broadcast along a new minor
  extent to `[a, b]`, and a lane sum of an `[a, b]` array over its minor axis read at a row as the sum over that row
  (at the exact instance, into the zero accumulator). General in the extents; nothing here mentions a program.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(i, u)`, the operand at `i`, whatever the unit coordinate `u`:
    the two row-major positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`: the unit axis reads `0`,
    the row axis is kept (also when `a = 1`, where the only row is row `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float lane sum of an `[a, b]` array over its minor axis, into the zero accumulator, read at row
    `i` is the sum over the `b` entries of that row. (The accumulator's side condition is typed as a printed program
    carries it, an equation between the two zero words.) -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (funext fun ax => Fin.ext (by
      match ax with
      | ⟨0, _⟩ => rfl
      | ⟨1, _⟩ => rfl)))

end Cert.LibKeepdims
-- ==== Proof.Scale0.lean ====
/-
  Region 0 (the first propagation hop's scaling): what its output array holds after the region has run.
  Every grid point `t` stages rows `4096·t … 4096·t + 4095` of the padded edge array and the same stretch of the padded
  weights, multiplies each row by its weight, and writes the block back; the 416 blocks tile the array, so the array ends
  as `scaleRows` of the two arrays the region was entered with.
-/
import proofs.«150529_j27504970563787_1_alg».proof.Proof.Gen.KernelIdeal.Frame
import proofs.«150529_j27504970563787_1_alg».proof.Proof.Spec
import proofs.«150529_j27504970563787_1_alg».proof.Proof.LibKeepdims
import Idealize.ShloMosaic.Lib.Pipeline.Value

set_option maxRecDepth 16384

noncomputable section

namespace Cert.Sgc.Scale0

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The padded rows the hop gathered, as the region finds them. -/
abbrev rows (c : Dev nD) : FVec Ideal S1703936x128 .f32 := V c main_v38
/-- The padded edge weights, as the region finds them. -/
abbrev wts (c : Dev nD) : FVec Ideal S1703936 .f32 := V c main_v30

/-! ## The body's product at an entry -/

/-- The body reads and writes its staging buffers from their first entry on: both offset vectors are zero. -/
theorem zero_off2 : (![0, 0] : Fin 2 → Nat) = fun _ => 0 := funext fun a => by fin_cases a <;> rfl
theorem zero_off1 : (![0] : Fin 1 → Nat) = fun _ => 0 := funext fun a => by fin_cases a <;> rfl

/-- Entry `(p, q)` of the block the body stores is entry `(p, q)` of the rows block times entry `p` of the weights
    block: the two identity casts drop out, the weights become a column `[4096, 1]` and the column is repeated along the
    128 lanes, so lane `q` of row `p` meets the weight of row `p`. -/
theorem payload_apply (x0 : Vec Ideal S4096x128 .f32) (x1 : Vec Ideal S4096 .f32) (p : Fin 4096) (q : Fin 128) :
    k0_pay1 (F := Ideal) x0 x1 (ix2 p q) = x0 (ix2 p q) * x1 (ix1 p) := by
  unfold k0_pay1
  rw [mulf_apply, shapeCast_self, shapeCast_self, Cert.LibKeepdims.broadcastTo_a1_ab_apply,
    Cert.LibKeepdims.shapeCast_a_a1_apply]

/-! ## Where each window's block sits at a point -/

/-- The three index maps over the 416 points: the rows window and the output window sit at block `(t, 0)`, the weights
    window at block `(t)`. -/
theorem block_indices : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

/-- Entry `(p, q)` of the rows block at point `t` is entry `(4096·t + p, q)` of the rows array. -/
theorem rows_block_apply (c : Dev nD) (t : Fin cfg0.N) (p : Fin 4096) (q : Fin 128) (e : Fin 1703936)
    (he : e.val = t.val * 4096 + p.val) :
    (iblk0 V c 0 t : Vec Ideal S4096x128 .f32) (ix2 p q) = rows V c (ix2 e q) := by
  obtain ⟨e0, e1, -, -, -⟩ := block_indices t
  unfold iblk0
  rw [View.read_apply]
  show V c main_v38 (((cfg0.win 0).blk t).view.emb (ix2 p q)) = V c main_v38 (ix2 e q)
  refine congrArg (V c main_v38) ?_
  funext a; apply Fin.ext
  match a with
  | ⟨0, _⟩ => show win0_0.index t (0 : Fin 2) * 4096 + 1 * p.val = e.val; omega
  | ⟨1, _⟩ => show win0_0.index t (1 : Fin 2) * 128 + 1 * q.val = q.val; omega

/-- Entry `p` of the weights block at point `t` is entry `4096·t + p` of the weights array. -/
theorem wts_block_apply (c : Dev nD) (t : Fin cfg0.N) (p : Fin 4096) (e : Fin 1703936)
    (he : e.val = t.val * 4096 + p.val) :
    (iblk0 V c 1 t : Vec Ideal S4096 .f32) (ix1 p) = wts V c (ix1 e) := by
  obtain ⟨-, -, e2, -, -⟩ := block_indices t
  unfold iblk0
  rw [View.read_apply]
  show V c main_v30 (((cfg0.win 1).blk t).view.emb (ix1 p)) = V c main_v30 (ix1 e)
  refine congrArg (V c main_v30) ?_
  funext a; apply Fin.ext
  match a with
  | ⟨0, _⟩ => show win0_1.index t (0 : Fin 1) * 4096 + 1 * p.val = e.val; omega

/-- Entry `(p, q)` of the output window's block at point `t` is entry `(4096·t + p, q)` of the output array. -/
theorem out_block_emb (t : Fin cfg0.N) (p : Fin 4096) (q : Fin 128) (e : Fin 1703936)
    (he : e.val = t.val * 4096 + p.val) :
    ((cfg0.win 2).blk t).view.emb (ix2 p q) = (ix2 e q : S1703936x128.Idx) := by
  obtain ⟨-, -, -, e3, e4⟩ := block_indices t
  funext a; apply Fin.ext
  match a with
  | ⟨0, _⟩ => show win0_2.index t (0 : Fin 2) * 4096 + 1 * p.val = e.val; omega
  | ⟨1, _⟩ => show win0_2.index t (1 : Fin 2) * 128 + 1 * q.val = q.val; omega

/-! ## What a point writes back -/

/-- What point `t` writes back is block `t` of `scaleRows` of the two arrays as the region finds them: entry `(p, q)` of
    the stored block is row `4096·t + p` of the rows array at lane `q` times weight `4096·t + p`. -/
theorem flushed_eq (c : Dev nD) (t : Fin cfg0.N) :
    (dat0 (F := Ideal) V c).flushed 2 t
      = ((cfg0.win 2).blk t).view.read (Elt Ideal) (scaleRows (rows V c) (wts V c)) := by
  show (cfg0.win 2).cut (grid0.coords t) ((dat0 V c).after 2 t) = _
  rw [after0_2]
  unfold out0_2
  rw [View.canon_unit_zero zero_off2]
  simp only [View.ld_unit_zero (S := S4096x128) zero_off2, View.ld_unit_zero (S := S4096) zero_off1]
  funext j
  obtain ⟨p, q, rfl⟩ : ∃ (p : Fin 4096) (q : Fin 128), j = ix2 p q := ⟨j 0, j 1, eq_ix2 j⟩
  have hN : cfg0.N = 416 := N_0
  have ht : t.val < cfg0.N := t.isLt
  obtain ⟨e, he⟩ : ∃ e : Fin 1703936, e.val = t.val * 4096 + p.val :=
    ⟨⟨t.val * 4096 + p.val, by have := p.isLt; omega⟩, rfl⟩
  show k0_pay1 (F := Ideal) (iblk0 V c 0 t) (iblk0 V c 1 t) (ix2 p q)
    = scaleRows (rows V c) (wts V c) (((cfg0.win 2).blk t).view.emb (ix2 p q))
  refine (payload_apply (iblk0 V c 0 t) (iblk0 V c 1 t) p q).trans ?_
  refine Eq.trans ?_ (congrArg (scaleRows (rows V c) (wts V c)) (out_block_emb t p q e he).symm)
  rw [scaleRows_apply, rows_block_apply V c t p q e he, wts_block_apply V c t p e he]

/-! ## The blocks tile the array -/

/-- An index of the output array is in point `t`'s block iff each coordinate is in the block's range on its axis. -/
theorem mem_block (t : Fin cfg0.N) (i : S1703936x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v39).slice (win0_2.rect t)).set ↔ _
  rw [View.set_slice_whole, Rect.mem_set_unit]
  exact Iff.rfl

/-- Every index of the output array lies in a block that is written back: row `r` is in the block of point
    `r / 4096`, and `1703936 = 416 · 4096`. -/
theorem covered (i : S1703936x128.Idx) :
    ∃ t : Fin cfg0.N, (cfg0.win 2).flush t = true ∧ i ∈ ((cfg0.win 2).blk t).view.set := by
  have hN : cfg0.N = 416 := N_0
  have hi0 : (i 0).val < 1703936 := (i 0).isLt
  have hi1 : (i 1).val < 128 := (i 1).isLt
  obtain ⟨t, ht⟩ : ∃ t : Fin cfg0.N, t.val = (i 0).val / 4096 := ⟨⟨(i 0).val / 4096, by omega⟩, rfl⟩
  obtain ⟨-, -, -, e3, e4⟩ := block_indices t
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- After the region the output array (`main_v39`) is every row scaled by its weight. -/
theorem final (c : Dev nD) :
    (dat0 (F := Ideal) V c).arrAt 2 cfg0.N = scaleRows (rows V c) (wts V c) :=
  (dat0 (F := Ideal) V c).arrAt_eq_of_cover 2 (scaleRows (rows V c) (wts V c)) (fun t _ => flushed_eq V c t) covered

end Cert.Sgc.Scale0

end
-- ==== Proof.Scale1.lean ====
/-
  Region 1 (the second propagation hop's scaling): what its output array holds after the region has run.
  Every grid point `t` stages rows `4096·t … 4096·t + 4095` of the padded edge array and the same stretch of the padded
  weights, multiplies each row by its weight, and writes the block back; the 416 blocks tile the array, so the array ends
  as `scaleRows` of the two arrays the region was entered with.
-/
import proofs.«150529_j27504970563787_1_alg».proof.Proof.Gen.KernelIdeal.Frame
import proofs.«150529_j27504970563787_1_alg».proof.Proof.Spec
import proofs.«150529_j27504970563787_1_alg».proof.Proof.LibKeepdims
import Idealize.ShloMosaic.Lib.Pipeline.Value

set_option maxRecDepth 16384

noncomputable section

namespace Cert.Sgc.Scale1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The padded rows the hop gathered, as the region finds them. -/
abbrev rows (c : Dev nD) : FVec Ideal S1703936x128 .f32 := V c main_v51
/-- The padded edge weights, as the region finds them. -/
abbrev wts (c : Dev nD) : FVec Ideal S1703936 .f32 := V c main_v30

/-! ## The body's product at an entry -/

/-- The body reads and writes its staging buffers from their first entry on: both offset vectors are zero. -/
theorem zero_off2 : (![0, 0] : Fin 2 → Nat) = fun _ => 0 := funext fun a => by fin_cases a <;> rfl
theorem zero_off1 : (![0] : Fin 1 → Nat) = fun _ => 0 := funext fun a => by fin_cases a <;> rfl

/-- Entry `(p, q)` of the block the body stores is entry `(p, q)` of the rows block times entry `p` of the weights
    block: the two identity casts drop out, the weights become a column `[4096, 1]` and the column is repeated along the
    128 lanes, so lane `q` of row `p` meets the weight of row `p`. -/
theorem payload_apply (x0 : Vec Ideal S4096x128 .f32) (x1 : Vec Ideal S4096 .f32) (p : Fin 4096) (q : Fin 128) :
    k1_pay1 (F := Ideal) x0 x1 (ix2 p q) = x0 (ix2 p q) * x1 (ix1 p) := by
  unfold k1_pay1
  rw [mulf_apply, shapeCast_self, shapeCast_self, Cert.LibKeepdims.broadcastTo_a1_ab_apply,
    Cert.LibKeepdims.shapeCast_a_a1_apply]

/-! ## Where each window's block sits at a point -/

/-- The three index maps over the 416 points: the rows window and the output window sit at block `(t, 0)`, the weights
    window at block `(t)`. -/
theorem block_indices : ∀ t : Fin cfg1.N, win1_0.index t (0 : Fin 2) = t.val ∧ win1_0.index t (1 : Fin 2) = 0
    ∧ win1_1.index t (0 : Fin 1) = t.val
    ∧ win1_2.index t (0 : Fin 2) = t.val ∧ win1_2.index t (1 : Fin 2) = 0 :=
  (by decide +kernel : ∀ t : Fin grid1.N, _)

/-- Entry `(p, q)` of the rows block at point `t` is entry `(4096·t + p, q)` of the rows array. -/
theorem rows_block_apply (c : Dev nD) (t : Fin cfg1.N) (p : Fin 4096) (q : Fin 128) (e : Fin 1703936)
    (he : e.val = t.val * 4096 + p.val) :
    (iblk1 V c 0 t : Vec Ideal S4096x128 .f32) (ix2 p q) = rows V c (ix2 e q) := by
  obtain ⟨e0, e1, -, -, -⟩ := block_indices t
  unfold iblk1
  rw [View.read_apply]
  show V c main_v51 (((cfg1.win 0).blk t).view.emb (ix2 p q)) = V c main_v51 (ix2 e q)
  refine congrArg (V c main_v51) ?_
  funext a; apply Fin.ext
  match a with
  | ⟨0, _⟩ => show win1_0.index t (0 : Fin 2) * 4096 + 1 * p.val = e.val; omega
  | ⟨1, _⟩ => show win1_0.index t (1 : Fin 2) * 128 + 1 * q.val = q.val; omega

/-- Entry `p` of the weights block at point `t` is entry `4096·t + p` of the weights array. -/
theorem wts_block_apply (c : Dev nD) (t : Fin cfg1.N) (p : Fin 4096) (e : Fin 1703936)
    (he : e.val = t.val * 4096 + p.val) :
    (iblk1 V c 1 t : Vec Ideal S4096 .f32) (ix1 p) = wts V c (ix1 e) := by
  obtain ⟨-, -, e2, -, -⟩ := block_indices t
  unfold iblk1
  rw [View.read_apply]
  show V c main_v30 (((cfg1.win 1).blk t).view.emb (ix1 p)) = V c main_v30 (ix1 e)
  refine congrArg (V c main_v30) ?_
  funext a; apply Fin.ext
  match a with
  | ⟨0, _⟩ => show win1_1.index t (0 : Fin 1) * 4096 + 1 * p.val = e.val; omega

/-- Entry `(p, q)` of the output window's block at point `t` is entry `(4096·t + p, q)` of the output array. -/
theorem out_block_emb (t : Fin cfg1.N) (p : Fin 4096) (q : Fin 128) (e : Fin 1703936)
    (he : e.val = t.val * 4096 + p.val) :
    ((cfg1.win 2).blk t).view.emb (ix2 p q) = (ix2 e q : S1703936x128.Idx) := by
  obtain ⟨-, -, -, e3, e4⟩ := block_indices t
  funext a; apply Fin.ext
  match a with
  | ⟨0, _⟩ => show win1_2.index t (0 : Fin 2) * 4096 + 1 * p.val = e.val; omega
  | ⟨1, _⟩ => show win1_2.index t (1 : Fin 2) * 128 + 1 * q.val = q.val; omega

/-! ## What a point writes back -/

/-- What point `t` writes back is block `t` of `scaleRows` of the two arrays as the region finds them: entry `(p, q)` of
    the stored block is row `4096·t + p` of the rows array at lane `q` times weight `4096·t + p`. -/
theorem flushed_eq (c : Dev nD) (t : Fin cfg1.N) :
    (dat1 (F := Ideal) V c).flushed 2 t
      = ((cfg1.win 2).blk t).view.read (Elt Ideal) (scaleRows (rows V c) (wts V c)) := by
  show (cfg1.win 2).cut (grid1.coords t) ((dat1 V c).after 2 t) = _
  rw [after1_2]
  unfold out1_2
  rw [View.canon_unit_zero zero_off2]
  simp only [View.ld_unit_zero (S := S4096x128) zero_off2, View.ld_unit_zero (S := S4096) zero_off1]
  funext j
  obtain ⟨p, q, rfl⟩ : ∃ (p : Fin 4096) (q : Fin 128), j = ix2 p q := ⟨j 0, j 1, eq_ix2 j⟩
  have hN : cfg1.N = 416 := N_1
  have ht : t.val < cfg1.N := t.isLt
  obtain ⟨e, he⟩ : ∃ e : Fin 1703936, e.val = t.val * 4096 + p.val :=
    ⟨⟨t.val * 4096 + p.val, by have := p.isLt; omega⟩, rfl⟩
  show k1_pay1 (F := Ideal) (iblk1 V c 0 t) (iblk1 V c 1 t) (ix2 p q)
    = scaleRows (rows V c) (wts V c) (((cfg1.win 2).blk t).view.emb (ix2 p q))
  refine (payload_apply (iblk1 V c 0 t) (iblk1 V c 1 t) p q).trans ?_
  refine Eq.trans ?_ (congrArg (scaleRows (rows V c) (wts V c)) (out_block_emb t p q e he).symm)
  rw [scaleRows_apply, rows_block_apply V c t p q e he, wts_block_apply V c t p e he]

/-! ## The blocks tile the array -/

/-- An index of the output array is in point `t`'s block iff each coordinate is in the block's range on its axis. -/
theorem mem_block (t : Fin cfg1.N) (i : S1703936x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v52).slice (win1_2.rect t)).set ↔ _
  rw [View.set_slice_whole, Rect.mem_set_unit]
  exact Iff.rfl

/-- Every index of the output array lies in a block that is written back: row `r` is in the block of point
    `r / 4096`, and `1703936 = 416 · 4096`. -/
theorem covered (i : S1703936x128.Idx) :
    ∃ t : Fin cfg1.N, (cfg1.win 2).flush t = true ∧ i ∈ ((cfg1.win 2).blk t).view.set := by
  have hN : cfg1.N = 416 := N_1
  have hi0 : (i 0).val < 1703936 := (i 0).isLt
  have hi1 : (i 1).val < 128 := (i 1).isLt
  obtain ⟨t, ht⟩ : ∃ t : Fin cfg1.N, t.val = (i 0).val / 4096 := ⟨⟨(i 0).val / 4096, by omega⟩, rfl⟩
  obtain ⟨-, -, -, e3, e4⟩ := block_indices t
  refine ⟨t, flush1_2 t, ?_⟩
  rw [mem_block]
  intro a
  match a with
  | ⟨0, _⟩ =>
    show win1_2.index t (0 : Fin 2) * 4096 ≤ (i 0).val ∧ (i 0).val < win1_2.index t (0 : Fin 2) * 4096 + 4096
    omega
  | ⟨1, _⟩ =>
    show win1_2.index t (1 : Fin 2) * 128 ≤ (i 1).val ∧ (i 1).val < win1_2.index t (1 : Fin 2) * 128 + 128
    omega

/-- After the region the output array (`main_v52`) is every row scaled by its weight. -/
theorem final (c : Dev nD) :
    (dat1 (F := Ideal) V c).arrAt 2 cfg1.N = scaleRows (rows V c) (wts V c) :=
  (dat1 (F := Ideal) V c).arrAt_eq_of_cover 2 (scaleRows (rows V c) (wts V c)) (fun t _ => flushed_eq V c t) covered

end Cert.Sgc.Scale1

end
-- ==== Proof.Scale2.lean ====
/-
  Region 2 (the third propagation hop's scaling): what its output array holds after the region has run.
  Every grid point `t` stages rows `4096·t … 4096·t + 4095` of the padded edge array and the same stretch of the padded
  weights, multiplies each row by its weight, and writes the block back; the 416 blocks tile the array, so the array ends
  as `scaleRows` of the two arrays the region was entered with.
-/
import proofs.«150529_j27504970563787_1_alg».proof.Proof.Gen.KernelIdeal.Frame
import proofs.«150529_j27504970563787_1_alg».proof.Proof.Spec
import proofs.«150529_j27504970563787_1_alg».proof.Proof.LibKeepdims
import Idealize.ShloMosaic.Lib.Pipeline.Value

set_option maxRecDepth 16384

noncomputable section

namespace Cert.Sgc.Scale2

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The padded rows the hop gathered, as the region finds them. -/
abbrev rows (c : Dev nD) : FVec Ideal S1703936x128 .f32 := V c main_v64
/-- The padded edge weights, as the region finds them. -/
abbrev wts (c : Dev nD) : FVec Ideal S1703936 .f32 := V c main_v30

/-! ## The body's product at an entry -/

/-- The body reads and writes its staging buffers from their first entry on: both offset vectors are zero. -/
theorem zero_off2 : (![0, 0] : Fin 2 → Nat) = fun _ => 0 := funext fun a => by fin_cases a <;> rfl
theorem zero_off1 : (![0] : Fin 1 → Nat) = fun _ => 0 := funext fun a => by fin_cases a <;> rfl

/-- Entry `(p, q)` of the block the body stores is entry `(p, q)` of the rows block times entry `p` of the weights
    block: the two identity casts drop out, the weights become a column `[4096, 1]` and the column is repeated along the
    128 lanes, so lane `q` of row `p` meets the weight of row `p`. -/
theorem payload_apply (x0 : Vec Ideal S4096x128 .f32) (x1 : Vec Ideal S4096 .f32) (p : Fin 4096) (q : Fin 128) :
    k2_pay1 (F := Ideal) x0 x1 (ix2 p q) = x0 (ix2 p q) * x1 (ix1 p) := by
  unfold k2_pay1
  rw [mulf_apply, shapeCast_self, shapeCast_self, Cert.LibKeepdims.broadcastTo_a1_ab_apply,
    Cert.LibKeepdims.shapeCast_a_a1_apply]

/-! ## Where each window's block sits at a point -/

/-- The three index maps over the 416 points: the rows window and the output window sit at block `(t, 0)`, the weights
    window at block `(t)`. -/
theorem block_indices : ∀ t : Fin cfg2.N, win2_0.index t (0 : Fin 2) = t.val ∧ win2_0.index t (1 : Fin 2) = 0
    ∧ win2_1.index t (0 : Fin 1) = t.val
    ∧ win2_2.index t (0 : Fin 2) = t.val ∧ win2_2.index t (1 : Fin 2) = 0 :=
  (by decide +kernel : ∀ t : Fin grid2.N, _)

/-- Entry `(p, q)` of the rows block at point `t` is entry `(4096·t + p, q)` of the rows array. -/
theorem rows_block_apply (c : Dev nD) (t : Fin cfg2.N) (p : Fin 4096) (q : Fin 128) (e : Fin 1703936)
    (he : e.val = t.val * 4096 + p.val) :
    (iblk2 V c 0 t : Vec Ideal S4096x128 .f32) (ix2 p q) = rows V c (ix2 e q) := by
  obtain ⟨e0, e1, -, -, -⟩ := block_indices t
  unfold iblk2
  rw [View.read_apply]
  show V c main_v64 (((cfg2.win 0).blk t).view.emb (ix2 p q)) = V c main_v64 (ix2 e q)
  refine congrArg (V c main_v64) ?_
  funext a; apply Fin.ext
  match a with
  | ⟨0, _⟩ => show win2_0.index t (0 : Fin 2) * 4096 + 1 * p.val = e.val; omega
  | ⟨1, _⟩ => show win2_0.index t (1 : Fin 2) * 128 + 1 * q.val = q.val; omega

/-- Entry `p` of the weights block at point `t` is entry `4096·t + p` of the weights array. -/
theorem wts_block_apply (c : Dev nD) (t : Fin cfg2.N) (p : Fin 4096) (e : Fin 1703936)
    (he : e.val = t.val * 4096 + p.val) :
    (iblk2 V c 1 t : Vec Ideal S4096 .f32) (ix1 p) = wts V c (ix1 e) := by
  obtain ⟨-, -, e2, -, -⟩ := block_indices t
  unfold iblk2
  rw [View.read_apply]
  show V c main_v30 (((cfg2.win 1).blk t).view.emb (ix1 p)) = V c main_v30 (ix1 e)
  refine congrArg (V c main_v30) ?_
  funext a; apply Fin.ext
  match a with
  | ⟨0, _⟩ => show win2_1.index t (0 : Fin 1) * 4096 + 1 * p.val = e.val; omega

/-- Entry `(p, q)` of the output window's block at point `t` is entry `(4096·t + p, q)` of the output array. -/
theorem out_block_emb (t : Fin cfg2.N) (p : Fin 4096) (q : Fin 128) (e : Fin 1703936)
    (he : e.val = t.val * 4096 + p.val) :
    ((cfg2.win 2).blk t).view.emb (ix2 p q) = (ix2 e q : S1703936x128.Idx) := by
  obtain ⟨-, -, -, e3, e4⟩ := block_indices t
  funext a; apply Fin.ext
  match a with
  | ⟨0, _⟩ => show win2_2.index t (0 : Fin 2) * 4096 + 1 * p.val = e.val; omega
  | ⟨1, _⟩ => show win2_2.index t (1 : Fin 2) * 128 + 1 * q.val = q.val; omega

/-! ## What a point writes back -/

/-- What point `t` writes back is block `t` of `scaleRows` of the two arrays as the region finds them: entry `(p, q)` of
    the stored block is row `4096·t + p` of the rows array at lane `q` times weight `4096·t + p`. -/
theorem flushed_eq (c : Dev nD) (t : Fin cfg2.N) :
    (dat2 (F := Ideal) V c).flushed 2 t
      = ((cfg2.win 2).blk t).view.read (Elt Ideal) (scaleRows (rows V c) (wts V c)) := by
  show (cfg2.win 2).cut (grid2.coords t) ((dat2 V c).after 2 t) = _
  rw [after2_2]
  unfold out2_2
  rw [View.canon_unit_zero zero_off2]
  simp only [View.ld_unit_zero (S := S4096x128) zero_off2, View.ld_unit_zero (S := S4096) zero_off1]
  funext j
  obtain ⟨p, q, rfl⟩ : ∃ (p : Fin 4096) (q : Fin 128), j = ix2 p q := ⟨j 0, j 1, eq_ix2 j⟩
  have hN : cfg2.N = 416 := N_2
  have ht : t.val < cfg2.N := t.isLt
  obtain ⟨e, he⟩ : ∃ e : Fin 1703936, e.val = t.val * 4096 + p.val :=
    ⟨⟨t.val * 4096 + p.val, by have := p.isLt; omega⟩, rfl⟩
  show k2_pay1 (F := Ideal) (iblk2 V c 0 t) (iblk2 V c 1 t) (ix2 p q)
    = scaleRows (rows V c) (wts V c) (((cfg2.win 2).blk t).view.emb (ix2 p q))
  refine (payload_apply (iblk2 V c 0 t) (iblk2 V c 1 t) p q).trans ?_
  refine Eq.trans ?_ (congrArg (scaleRows (rows V c) (wts V c)) (out_block_emb t p q e he).symm)
  rw [scaleRows_apply, rows_block_apply V c t p q e he, wts_block_apply V c t p e he]

/-! ## The blocks tile the array -/

/-- An index of the output array is in point `t`'s block iff each coordinate is in the block's range on its axis. -/
theorem mem_block (t : Fin cfg2.N) (i : S1703936x128.Idx) :
    i ∈ ((cfg2.win 2).blk t).view.set ↔ ∀ a : Fin 2, win2_2.index t a * S4096x128.size a ≤ (i a).val
      ∧ (i a).val < win2_2.index t a * S4096x128.size a + S4096x128.size a := by
  show i ∈ ((View.whole main_v65).slice (win2_2.rect t)).set ↔ _
  rw [View.set_slice_whole, Rect.mem_set_unit]
  exact Iff.rfl

/-- Every index of the output array lies in a block that is written back: row `r` is in the block of point
    `r / 4096`, and `1703936 = 416 · 4096`. -/
theorem covered (i : S1703936x128.Idx) :
    ∃ t : Fin cfg2.N, (cfg2.win 2).flush t = true ∧ i ∈ ((cfg2.win 2).blk t).view.set := by
  have hN : cfg2.N = 416 := N_2
  have hi0 : (i 0).val < 1703936 := (i 0).isLt
  have hi1 : (i 1).val < 128 := (i 1).isLt
  obtain ⟨t, ht⟩ : ∃ t : Fin cfg2.N, t.val = (i 0).val / 4096 := ⟨⟨(i 0).val / 4096, by omega⟩, rfl⟩
  obtain ⟨-, -, -, e3, e4⟩ := block_indices t
  refine ⟨t, flush2_2 t, ?_⟩
  rw [mem_block]
  intro a
  match a with
  | ⟨0, _⟩ =>
    show win2_2.index t (0 : Fin 2) * 4096 ≤ (i 0).val ∧ (i 0).val < win2_2.index t (0 : Fin 2) * 4096 + 4096
    omega
  | ⟨1, _⟩ =>
    show win2_2.index t (1 : Fin 2) * 128 ≤ (i 1).val ∧ (i 1).val < win2_2.index t (1 : Fin 2) * 128 + 128
    omega

/-- After the region the output array (`main_v65`) is every row scaled by its weight. -/
theorem final (c : Dev nD) :
    (dat2 (F := Ideal) V c).arrAt 2 cfg2.N = scaleRows (rows V c) (wts V c) :=
  (dat2 (F := Ideal) V c).arrAt_eq_of_cover 2 (scaleRows (rows V c) (wts V c)) (fun t _ => flushed_eq V c t) covered

end Cert.Sgc.Scale2

end
-- ==== Proof.Linear.lean ====
/-
  Region 3 (the final linear stage): what its output array holds after the region has run.
  Every grid point `t` stages rows `2000·t … 2000·t + 1999` of the propagated features, the whole weight matrix and the whole
  bias, contracts each feature row with each weight row (a matrix product into a zero accumulator: at the exact instance a
  plain sum over the 128 features, the change of float format being the identity) and adds the bias; the 50 blocks tile
  the array, so it ends as `affineRows` of the three arrays the region was entered with.
-/
import proofs.«150529_j27504970563787_1_alg».proof.Proof.Gen.KernelIdeal.Frame
import proofs.«150529_j27504970563787_1_alg».proof.Proof.Spec
import Idealize.ShloMosaic.Lib.Pipeline.Value
import Idealize.ShloMosaic.Lib.ValueLayout

set_option maxRecDepth 16384

noncomputable section

namespace Cert.Sgc.Linear

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The propagated node features, as the region finds them. -/
abbrev feats (c : Dev nD) : FVec Ideal S100000x128 .f32 := V c main_v69
/-- The weight matrix, as the region finds it. -/
abbrev wmat (c : Dev nD) : FVec Ideal S64x128 .f32 := V c main_arg2
/-- The bias, as the region finds it. -/
abbrev bias (c : Dev nD) : FVec Ideal S64 .f32 := V c main_arg3

/-! ## The matrix product at an entry

The product contracts the left operand `[2000, 128]` and the right operand `[64, 128]` each along its own axis 1; the
result's axis 0 is the left operand's axis 0 and its axis 1 the right operand's axis 0. So at result entry `(p, o)` and
contraction position `k` the left operand is read at `(p, k)` and the right one at `(o, k)`. -/

/-- The left operand's row is the result's row. -/
theorem lhs_axis0 (i : S2000x64.Idx) (q : dot_S2000x128_S64x128_S2000x64_1_1_0_0_n_n.contr.Idx) :
    (dot_S2000x128_S64x128_S2000x64_1_1_0_0_n_n.lhsIdx i q 0).val = (i 0).val := by
  unfold DotDims.lhsIdx
  rw [dif_neg (show ¬(0 : Fin S2000x128.rank) ∈ dot_S2000x128_S64x128_S2000x64_1_1_0_0_n_n.lhsBatch by decide), dif_pos (show (0 : Fin S2000x128.rank) ∈ dot_S2000x128_S64x128_S2000x64_1_1_0_0_n_n.lhsNonContracting by decide)]
  rfl
/-- The left operand's column is the contraction position. -/
theorem lhs_axis1 (i : S2000x64.Idx) (q : dot_S2000x128_S64x128_S2000x64_1_1_0_0_n_n.contr.Idx) :
    (dot_S2000x128_S64x128_S2000x64_1_1_0_0_n_n.lhsIdx i q 1).val = (q ⟨0, by decide⟩).val :=
  dot_S2000x128_S64x128_S2000x64_1_1_0_0_n_n.lhsIdx_val_of_single rfl i q
/-- The right operand's row is the result's column. -/
theorem rhs_axis0 (i : S2000x64.Idx) (q : dot_S2000x128_S64x128_S2000x64_1_1_0_0_n_n.contr.Idx) :
    (dot_S2000x128_S64x128_S2000x64_1_1_0_0_n_n.rhsIdx i q 0).val = (i 1).val := by
  unfold DotDims.rhsIdx
  rw [dif_neg (show ¬(0 : Fin S64x128.rank) ∈ dot_S2000x128_S64x128_S2000x64_1_1_0_0_n_n.rhsBatch by decide), dif_pos (show (0 : Fin S64x128.rank) ∈ dot_S2000x128_S64x128_S2000x64_1_1_0_0_n_n.rhsNonContracting by decide)]
  rfl
/-- The right operand's column is the contraction position. -/
theorem rhs_axis1 (i : S2000x64.Idx) (q : dot_S2000x128_S64x128_S2000x64_1_1_0_0_n_n.contr.Idx) :
    (dot_S2000x128_S64x128_S2000x64_1_1_0_0_n_n.rhsIdx i q 1).val = (q ⟨0, by decide⟩).val :=
  dot_S2000x128_S64x128_S2000x64_1_1_0_0_n_n.rhsIdx_val_of_single rfl i q

/-- Into the zero accumulator, entry `(p, o)` of the product is `Σ_k l[p, k] · r[o, k]`: the sum over the one contracted
    axis, re-indexed by its coordinate. -/
theorem product_apply (l : FVec Ideal S2000x128 .bf16) (r : FVec Ideal S64x128 .bf16) (p : Fin 2000) (o : Fin 64) :
    matmul dot_S2000x128_S64x128_S2000x64_1_1_0_0_n_n none l r (constant (F := Ideal) S2000x64 .f32 0x00000000#32) (ix2 p o)
      = ∑ k : Fin 128, l (ix2 p k) * r (ix2 o k) := by
  show FloatOps.matmul dot_S2000x128_S64x128_S2000x64_1_1_0_0_n_n none l r (constant S2000x64 .f32 0x00000000#32) (ix2 p o) = _
  rw [Ideal.matmul_constant_zero_apply, ← Equiv.sum_comp (contrEquiv1 dot_S2000x128_S64x128_S2000x64_1_1_0_0_n_n 128 rfl rfl).symm]
  refine Finset.sum_congr rfl fun k _ => ?_
  have hk := contrEquiv1_symm_val dot_S2000x128_S64x128_S2000x64_1_1_0_0_n_n 128 rfl rfl k
  have el : dot_S2000x128_S64x128_S2000x64_1_1_0_0_n_n.lhsIdx (ix2 p o) ((contrEquiv1 dot_S2000x128_S64x128_S2000x64_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S2000x128_S64x128_S2000x64_1_1_0_0_n_n.rhsIdx (ix2 p o) ((contrEquiv1 dot_S2000x128_S64x128_S2000x64_1_1_0_0_n_n 128 rfl rfl).symm k) = ix2 o k := funext fun a => Fin.ext (by
    match a with
    | ⟨0, _⟩ => exact rhs_axis0 _ _
    | ⟨1, _⟩ => exact (rhs_axis1 _ _).trans hk)
  rw [el, er]

/-! ## The body's stored value at an entry -/

/-- Entry `(p, o)` of what the body stores, from its three loaded blocks: `Σ_k x0[p, k] · x1[o, k] + x2[o]`. The sum of two
    vectors reads entrywise; the product is `product_apply`; the bias `[64]` viewed `[1, 64]` and repeated over the 2000
    rows reads its entry `o` in every row; a cast to the same shape and a change of float format are the identity. -/
theorem payload_apply (x0 : Vec Ideal S2000x128 .f32) (x1 : Vec Ideal S64x128 .f32) (x2 : Vec Ideal S64 .f32) (p : Fin 2000) (o : Fin 64) :
    (k3_pay1 (F := Ideal) x0 x1 x2) (ix2 p o) = (∑ k : Fin 128, x0 (ix2 p k) * x1 (ix2 o k)) + x2 (ix1 o) := by
  unfold k3_pay1
  rw [addf_apply, product_apply, broadcastTo_1b_ab_apply, shapeCast_a_1a_apply, shapeCast_self]
  rfl

/-! ## What a grid point stores is a block of the affine map -/

theorem zero_pair : (![0, 0] : Fin 2 → Nat) = fun _ => 0 := funext fun a => by fin_cases a <;> rfl
theorem zero_single : (![0] : Fin 1 → Nat) = fun _ => 0 := funext fun a => by fin_cases a <;> rfl

/-- The body's one store covers the whole output block, and its loads read the whole input blocks: what it leaves is the
    stored value of the three blocks themselves. -/
theorem stored_eq_payload (x0 : Vec Ideal S2000x128 .f32) (x1 : Vec Ideal S64x128 .f32) (x2 : Vec Ideal S64 .f32) :
    out3_3 (F := Ideal) x0 x1 x2 = k3_pay1 x0 x1 x2 := by
  unfold out3_3
  rw [View.canon_unit_zero zero_pair]
  simp only [View.ld_unit_zero (S := S2000x128) zero_pair, View.ld_unit_zero (S := S64x128) zero_pair, View.ld_unit_zero (S := S64) zero_single]

/-- The block index maps over the 50 grid points: the feature window and the output window sit at block `(t, 0)`, the
    weight and bias windows at block `(0, 0)` and `(0)` at every point. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- If `x0` is rows `2000·T … 2000·T + 1999` of `h`, `x1` is `W` and `x2` is `b`, then entry `(p, o)` of the stored value is
    entry `(2000·T + p, o)` of the affine map of `h`, `W`, `b`: an entry depends on one feature row, one weight row and one
    bias entry only. -/
theorem block_entry (h : FVec Ideal S100000x128 .f32) (W : FVec Ideal S64x128 .f32) (b : FVec Ideal S64 .f32) (T : ℕ) (hT : T < 50)
    (x0 : Vec Ideal S2000x128 .f32) (x1 : Vec Ideal S64x128 .f32) (x2 : Vec Ideal S64 .f32)
    (h0 : ∀ (p : Fin 2000) (k : Fin 128), x0 (ix2 p k) = h (ix2 (⟨T * 2000 + p.val, by omega⟩ : Fin 100000) k))
    (h1 : x1 = W) (h2 : x2 = b) (p : Fin 2000) (o : Fin 64) :
    k3_pay1 (F := Ideal) x0 x1 x2 (ix2 p o) = affineRows h W b (ix2 (⟨T * 2000 + p.val, by omega⟩ : Fin 100000) o) := by
  subst h1 h2
  rw [payload_apply, affineRows_apply]
  exact congrArg (· + x2 (ix1 o)) (Finset.sum_congr rfl fun k _ => by rw [h0 p k])

/-- What grid point `t` writes back is block `t` of the affine map of the three arrays the region was entered with. A
    block's coordinate on an axis is the block index times the block's extent plus the coordinate inside the block. -/
theorem flushed_eq (c : Dev nD) (t : Fin cfg3.N) :
    (dat3 (F := Ideal) V c).flushed 3 t
      = ((cfg3.win 3).blk t).view.read (Elt Ideal) (affineRows (feats V c) (wmat V c) (bias V c)) := by
  show (cfg3.win 3).cut (grid3.coords t) ((dat3 V c).after 3 t) = _
  rw [after3_3, stored_eq_payload]
  obtain ⟨e0, e1, e2, e3, e4, e5, e6⟩ := index_facts t
  have hT : t.val < 50 := lt_of_lt_of_eq t.isLt N_3
  funext j
  obtain ⟨p, o, rfl⟩ : ∃ (p : Fin 2000) (o : Fin 64), j = ix2 p o := ⟨j 0, j 1, eq_ix2 j⟩
  refine (block_entry (feats V c) (wmat V c) (bias V c) t.val hT (iblk3 V c 0 t) (iblk3 V c 1 t) (iblk3 V c 2 t) ?_ ?_ ?_ p o).trans ?_
  · -- the feature block is rows 2000·t … of the feature array
    intro p k
    show V c main_v69 (((cfg3.win 0).blk t).view.emb (ix2 p k)) = V c main_v69 _
    refine congrArg (V c main_v69) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  · -- the weight block is the whole weight matrix
    funext z
    show V c main_arg2 (((cfg3.win 1).blk t).view.emb z) = V c main_arg2 z
    refine congrArg (V c main_arg2) (funext fun a => Fin.ext ?_)
    match a with
    | ⟨0, _⟩ => show win3_1.index t (0 : Fin 2) * 64 + 1 * (z 0).val = (z 0).val; omega
    | ⟨1, _⟩ => show win3_1.index t (1 : Fin 2) * 128 + 1 * (z 1).val = (z 1).val; omega
  · -- the bias block is the whole bias
    funext z
    show V c main_arg3 (((cfg3.win 2).blk t).view.emb z) = V c main_arg3 z
    refine congrArg (V c main_arg3) (funext fun a => Fin.ext ?_)
    match a with
    | ⟨0, _⟩ => show win3_2.index t (0 : Fin 1) * 64 + 1 * (z 0).val = (z 0).val; omega
  · -- entry (p, o) of the output block is entry (2000·t + p, o) of the array
    show affineRows (feats V c) (wmat V c) (bias V c) _ = affineRows (feats V c) (wmat V c) (bias V c) (((cfg3.win 3).blk t).view.emb (ix2 p o))
    refine congrArg (affineRows (feats V c) (wmat V c) (bias V c)) (funext fun a => Fin.ext ?_)
    match a with
    | ⟨0, _⟩ => show t.val * 2000 + p.val = win3_3.index t (0 : Fin 2) * 2000 + 1 * p.val; omega
    | ⟨1, _⟩ => show o.val = win3_3.index t (1 : Fin 2) * 64 + 1 * o.val; omega

/-! ## The 50 blocks tile the array -/

/-- An index of the output array is in point `t`'s block iff each coordinate is in the block's range on its axis. -/
theorem mem_block (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v70).slice (win3_3.rect t)).set ↔ _
  rw [View.set_slice_whole, Rect.mem_set_unit]
  exact Iff.rfl

/-- Every block row `q` of the 50 is some grid point's. -/
theorem index_onto : ∀ q : Fin 50, ∃ t : Fin cfg3.N, win3_3.index t = ![q.val, 0] :=
  (by decide +kernel : ∀ q : Fin 50, ∃ t : Fin grid3.N, win3_3.index t = ![q.val, 0])

/-- Every index of the output array lies in a block that is written back: row `r` in the block of point `r / 2000`. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := index_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- After the region the output array (`main_v70`) is the affine map of every feature row. -/
theorem final (c : Dev nD) :
    (dat3 (F := Ideal) V c).arrAt 3 cfg3.N = affineRows (feats V c) (wmat V c) (bias V c) :=
  (dat3 (F := Ideal) V c).arrAt_eq_of_cover 3 (affineRows (feats V c) (wmat V c) (bias V c)) (fun t _ => flushed_eq V c t) covered

end Cert.Sgc.Linear

end
-- ==== Proof.Laws.lean ====
/-
  The two algebraic laws that join the kernel's stages to the reference's, at the exact instance.
  A hop: padding rows and weights with any value, scaling every row by its weight and cutting the padding off again gives
  weight times row on the unpadded arrays (the padding never reaches a kept entry; the product commutes on the extended
  reals). The last stage: the affine row map `Σ_k h[r, k] · W[o, k] + b[o]` is the reference's product of the features with the
  transposed weight matrix plus the bias broadcast along the rows.
-/
import proofs.«150529_j27504970563787_1_alg».proof.KernelIdeal
import proofs.«150529_j27504970563787_1_alg».proof.Proof.RefStages
import proofs.«150529_j27504970563787_1_alg».proof.Proof.Spec
import Idealize.ShloMosaic.Lib.Pipeline.Value
import Idealize.ShloMosaic.Lib.KernelVsHost

noncomputable section

namespace Cert.Sgc.Laws
open Idealize.ShloMosaic Idealize.ShloMosaic.ValueIdx

/-- One hop's messages: pad rows and weights, scale, cut the padding off again = weight (broadcast along the row) times row. -/
theorem hop_law (g : FVec Ideal Cert.KernelIdeal.S1700000x128 .f32) (n : FVec Ideal Cert.KernelIdeal.S1700000 .f32)
    (v v' : FVec Ideal Cert.KernelIdeal.S_ .f32)
    (hpr : Cert.KernelIdeal.S1700000x128.Pads (![0, 0] : Fin 2 → Nat) ![3936, 0] ![0, 0] Cert.KernelIdeal.S1703936x128)
    (hpw : Cert.KernelIdeal.S1700000.Pads (![0] : Fin 1 → Nat) ![3936] ![0] Cert.KernelIdeal.S1703936)
    (hu : 0 < Cert.KernelIdeal.S_.numel)
    (hsl : Cert.KernelIdeal.S1703936x128.Slices ![0, 0] Cert.KernelIdeal.S1700000x128)
    (hb1 : Cert.ReferenceIdeal.S1700000.BroadcastsInDim Cert.ReferenceIdeal.S1700000x1 ![0])
    (hb2 : Cert.ReferenceIdeal.S1700000x1.BroadcastsInDim Cert.ReferenceIdeal.S1700000x128 ![0, 1]) :
    extractStridedSlice Cert.KernelIdeal.S1700000x128 ![0, 0]
        (scaleRows
          (pad Cert.KernelIdeal.S1703936x128 ![0, 0] ![3936, 0] ![0, 0] g v hpr hu)
          (pad Cert.KernelIdeal.S1703936 ![0] ![3936] ![0] n v' hpw hu))
        hsl
      = mulf (F := Ideal)
          (broadcastInDim Cert.ReferenceIdeal.S1700000x128 ![0, 1] hb2
            (broadcastInDim Cert.ReferenceIdeal.S1700000x1 ![0] hb1 n))
          g := by
  funext i
  obtain ⟨e, j, rfl⟩ : ∃ (e : Fin 1700000) (j : Fin 128), i = ix2 e j := ⟨i 0, i 1, eq_ix2 i⟩
  -- the same row, as a row of the padded array
  have he : e.val < 1703936 := by have := e.isLt; omega
  -- left: the slice at offsets (0, 0) reads the scaled padded array at the same coordinates
  refine (extractStridedSlice_apply ![0, 0] _ hsl (ix2 e j) (ix2 (⟨e.val, he⟩ : Fin 1703936) j) (fun a => match a with
    | ⟨0, _⟩ => by show e.val = 0 + e.val; omega
    | ⟨1, _⟩ => by show j.val = 0 + j.val; omega)).trans ?_
  rw [scaleRows_apply]
  -- both pads have low padding 0 and no interior padding, and the row is below the operand's extent
  rw [pad_apply_of_inside ![0, 0] ![3936, 0] ![0, 0] g v hpr hu (ix2 (⟨e.val, he⟩ : Fin 1703936) j) (ix2 e j) (fun a => match a with
    | ⟨0, _⟩ => by show e.val = 0 + e.val * (0 + 1); omega
    | ⟨1, _⟩ => by show j.val = 0 + j.val * (0 + 1); omega)]
  rw [pad_apply_of_inside ![0] ![3936] ![0] n v' hpw hu (ix1 (⟨e.val, he⟩ : Fin 1703936)) (ix1 e) (fun a => match a with
    | ⟨0, _⟩ => by show e.val = 0 + e.val * (0 + 1); omega)]
  -- right: the product read at the index, the weight column broadcast along the row, the vector read as a column
  rw [mulf_apply]
  rw [broadcastInDim_apply ![0, 1] hb2 _ (ix2 e j) (ix2 e (0 : Fin 1)) (fun a => match a with
    | ⟨0, _⟩ => by show e.val = if (1700000 : Nat) = 1 then 0 else e.val; rw [if_neg (by decide)]
    | ⟨1, _⟩ => by show 0 = if (1 : Nat) = 1 then 0 else j.val; rw [if_pos rfl])]
  rw [broadcastInDim_apply ![0] hb1 n (ix2 e (0 : Fin 1)) (ix1 e) (fun a => match a with
    | ⟨0, _⟩ => by show e.val = if (1700000 : Nat) = 1 then 0 else e.val; rw [if_neg (by decide)])]
  exact mul_comm _ _

/-- The left operand of the contraction at output `(r, o)` and step `k` is read at `(r, k)`. -/
theorem left_index (r : Fin 100000) (o : Fin 64) (k : Fin 128) :
    Cert.ReferenceIdeal.Read.lidx_main_v70 (ix2 r o) k = ix2 r k :=
  funext fun a => Fin.ext (by match a with | ⟨0, _⟩ => rfl | ⟨1, _⟩ => rfl)

/-- The right operand of the contraction is the transposed weight matrix at `(k, o)`, which is the weight matrix at `(o, k)`. -/
theorem right_index (r : Fin 100000) (o : Fin 64) (k : Fin 128) :
    Cert.ReferenceIdeal.Read.idx_main_v69 (Cert.ReferenceIdeal.Read.ridx_main_v70 (ix2 r o) k) = ix2 o k :=
  funext fun a => Fin.ext (by match a with | ⟨0, _⟩ => rfl | ⟨1, _⟩ => rfl)

/-- The bias broadcast `[64] → [1, 64] → [100000, 64]` read at `(r, o)` is the bias at `o`. -/
theorem bias_index (r : Fin 100000) (o : Fin 64) :
    Cert.ReferenceIdeal.Read.idx_main_v71 (Cert.ReferenceIdeal.Read.idx_main_v72 (ix2 r o)) = ix1 o :=
  funext fun a => Fin.ext (by match a with | ⟨0, _⟩ => rfl)

/-- The last stage: the affine row map of the propagated features IS the reference's product with the transposed weights plus the broadcast bias. -/
theorem affine_law (x0 : FVec Ideal Cert.ReferenceIdeal.S100000x128 .f32) (x1 : (⟨Cert.ReferenceIdeal.S2x1600000, .i32⟩ : BufTy).Contents (Elt Ideal))
    (x2 : FVec Ideal Cert.ReferenceIdeal.S64x128 .f32) (x3 : FVec Ideal Cert.ReferenceIdeal.S64 .f32) :
    affineRows (Cert.ReferenceIdeal.Read.val_main_v68 (F := Ideal) x0 x1) x2 x3 = Cert.ReferenceIdeal.Read.val_main_v73 (F := Ideal) x0 x1 x2 x3 := by
  funext i
  obtain ⟨r, o, rfl⟩ : ∃ (r : Fin 100000) (o : Fin 64), i = ix2 r o := ⟨i 0, i 1, eq_ix2 i⟩
  -- left: the affine map at (r, o); right: the sum of the product stage and the broadcast bias, each read at (r, o)
  rw [affineRows_apply, Cert.ReferenceIdeal.Read.val_main_v73_apply, Cert.ReferenceIdeal.Read.val_main_v70_apply, Cert.ReferenceIdeal.Read.val_main_v72_apply, Cert.ReferenceIdeal.Read.val_main_v71_apply]
  -- the bias: [64] → [1, 64] → [100000, 64] reads entry o
  rw [bias_index r o]
  show (∑ k : Fin 128, _ * _) + _ = (∑ k : Fin 128, _ * _) + _
  refine congrArg (· + x3 (ix1 o)) (Finset.sum_congr rfl fun k _ => ?_)
  -- the product: the features at (r, k), the transposed weights at (k, o), which is the weight matrix at (o, k)
  rw [Cert.ReferenceIdeal.Read.val_main_v69_apply, left_index r o k, right_index r o k]
end Cert.Sgc.Laws

end
-- ==== Proof.StagesHops.lean ====
/-
  From the first region to the result: the three propagation hops and the final linear stage, boundary by boundary.
  At a region's entry four things are known: the padded rows it scales (the reference's gathered rows, padded), the padded
  weights (the reference's edge weights, padded), and the two index vectors (the reference's). The region leaves its output at
  every row times its weight; the padding is cut off again, and by the hop's law that is the reference's product of the
  broadcast weights with the gathered rows; the same scatter-add and gather then give the next hop's rows. After the third
  hop the features are the reference's, and the last region's affine row map of them is the reference's result.
-/
import proofs.«150529_j27504970563787_1_alg».proof.Proof.StagesEntry
import proofs.«150529_j27504970563787_1_alg».proof.Proof.Scale0
import proofs.«150529_j27504970563787_1_alg».proof.Proof.Scale1
import proofs.«150529_j27504970563787_1_alg».proof.Proof.Scale2
import proofs.«150529_j27504970563787_1_alg».proof.Proof.Linear
import proofs.«150529_j27504970563787_1_alg».proof.Proof.Laws

set_option maxRecDepth 16384

noncomputable section

namespace Cert.Sgc.Hops

open Idealize.ShloMosaic Idealize.ShloMosaic.TcCoe Idealize.SL.Sem Idealize.ShloMosaic.StableHlo Cert.KernelIdeal Cert.KernelIdeal.Gen
open Cert.Sgc.Entry
open Cert.ReferenceIdeal.Read (val_main_v5 val_main_v6 val_main_v29 val_main_v37 val_main_v50 val_main_v63 val_main_v68 val_main_v73)

variable (m : (ℓ : Loc nD τ sig) → Buf (Elt Ideal) ℓ) (ρ : Dev nD → PrngReg) (c : Dev nD)

/-- The value the weights were padded with (never read: the padding is cut off before anything is kept). -/
abbrev w0 : FVec Ideal S_ .f32 := sitofp (F := Ideal) .f32 (W3 (F := Ideal) m ρ c (Proc.devRef .tc main_c_6))

/-! ## The first region's entry, in the form every entry takes -/

theorem rows_W6 : W6 (F := Ideal) m ρ c (Proc.devRef .tc main_v38)
    = padR (val_main_v37 (F := Ideal) (a0 m c) (a1 m c)) (sitofp (F := Ideal) .f32 (W5 (F := Ideal) m ρ c (Proc.devRef .tc main_c_9))) := rows6 m ρ c
theorem wts_W6 : W6 (F := Ideal) m ρ c (Proc.devRef .tc main_v30) = padW (val_main_v29 (F := Ideal) (a1 m c)) (w0 m ρ c) :=
  (wts6 m ρ c).trans (wts4 m ρ c)
theorem src_W6 : W6 (F := Ideal) m ρ c (Proc.devRef .tc main_v5) = val_main_v5 (F := Ideal) (a1 m c) := src6 m ρ c
theorem dst_W6 : W6 (F := Ideal) m ρ c (Proc.devRef .tc main_v6) = val_main_v6 (F := Ideal) (a1 m c) := dst6 m ρ c

/-! ## Region 0: its exit -/

/-- The region's output array is every entry row scaled by its weight (the region's own lemma at the entry contents). -/
theorem out_W7 : W7 (F := Ideal) m ρ c (Proc.devRef .tc main_v39)
    = scaleRows (W6 (F := Ideal) m ρ c (Proc.devRef .tc main_v38)) (W6 (F := Ideal) m ρ c (Proc.devRef .tc main_v30)) :=
  (W7_arr (F := Ideal) m ρ c 2).trans (Scale0.final (V6 (F := Ideal) m ρ) c)

/-- The weights are an input window of the region: it leaves them as it found them. -/
theorem wts_W7 : W7 (F := Ideal) m ρ c (Proc.devRef .tc main_v30) = W6 (F := Ideal) m ρ c (Proc.devRef .tc main_v30) :=
  (W7_arr (F := Ideal) m ρ c 1).trans (((dat0 (V6 (F := Ideal) m ρ) c).arrAt_in 1 rfl _).trans (A_eq0 (V6 (F := Ideal) m ρ) c 1))

/-- The index vectors are none of the region's arrays. -/
theorem src_W7 : W7 (F := Ideal) m ρ c (Proc.devRef .tc main_v5) = W6 (F := Ideal) m ρ c (Proc.devRef .tc main_v5) :=
  W7_of_ne (F := Ideal) m ρ c main_v5 (by decide)
theorem dst_W7 : W7 (F := Ideal) m ρ c (Proc.devRef .tc main_v6) = W6 (F := Ideal) m ρ c (Proc.devRef .tc main_v6) :=
  W7_of_ne (F := Ideal) m ρ c main_v6 (by decide)

/-! ## Between region 0 and region 1: the rows hop 2 gathers -/

set_option maxHeartbeats 2000000 in
/-- The previous hop's messages are summed per target node, and the sums' rows are read at the edges' sources: the
    reference's own stage, once the region's output is known to be weight times row on the unpadded edges. -/
theorem gath_W8 : W8 (F := Ideal) m ρ c (Proc.devRef .tc main_v50) = val_main_v50 (F := Ideal) (a0 m c) (a1 m c) := by
  dsimp only [W8]
  have hout := out_W7 m ρ c
  rw [rows_W6 m ρ c, wts_W6 m ρ c] at hout
  have hs := (src_W7 m ρ c).trans (src_W6 m ρ c)
  have hd := (dst_W7 m ρ c).trans (dst_W6 m ρ c)
  generalize W7 (F := Ideal) m ρ c = U at hout hs hd ⊢
  after_results_simp
  rw [hout, hs, hd, Laws.hop_law _ _ _ _ _ _ _ _ Cert.ReferenceIdeal.Facts₀.bcast_S1700000_S1700000x1_0
    Cert.ReferenceIdeal.Facts₀.bcast_S1700000x1_S1700000x128_0_1]
  all_goals rfl

set_option maxHeartbeats 2000000 in
/-- Those rows, padded. -/
theorem rows_W9 : W9 (F := Ideal) m ρ c (Proc.devRef .tc main_v51)
    = padR (val_main_v50 (F := Ideal) (a0 m c) (a1 m c)) (sitofp (F := Ideal) .f32 (W8 (F := Ideal) m ρ c (Proc.devRef .tc main_c_13))) := by
  dsimp only [W9]
  have h := gath_W8 m ρ c
  generalize W8 (F := Ideal) m ρ c = U at h ⊢
  after_results_simp
  simp only [TRef.ofBuf, TRef.toBuf, cast_eq]
  rw [h]
  all_goals rfl

set_option maxHeartbeats 2000000 in
theorem wts_W9 : W9 (F := Ideal) m ρ c (Proc.devRef .tc main_v30) = padW (val_main_v29 (F := Ideal) (a1 m c)) (w0 m ρ c) := by
  refine Eq.trans ?_ ((wts_W7 m ρ c).trans (wts_W6 m ρ c))
  dsimp only [W9, W8]
  generalize W7 (F := Ideal) m ρ c = U
  after_results_simp

set_option maxHeartbeats 2000000 in
theorem src_W9 : W9 (F := Ideal) m ρ c (Proc.devRef .tc main_v5) = val_main_v5 (F := Ideal) (a1 m c) := by
  refine Eq.trans ?_ ((src_W7 m ρ c).trans (src_W6 m ρ c))
  dsimp only [W9, W8]
  generalize W7 (F := Ideal) m ρ c = U
  after_results_simp

set_option maxHeartbeats 2000000 in
theorem dst_W9 : W9 (F := Ideal) m ρ c (Proc.devRef .tc main_v6) = val_main_v6 (F := Ideal) (a1 m c) := by
  refine Eq.trans ?_ ((dst_W7 m ρ c).trans (dst_W6 m ρ c))
  dsimp only [W9, W8]
  generalize W7 (F := Ideal) m ρ c = U
  after_results_simp

/-! ## Region 1: its exit -/

/-- The region's output array is every entry row scaled by its weight (the region's own lemma at the entry contents). -/
theorem out_W10 : W10 (F := Ideal) m ρ c (Proc.devRef .tc main_v52)
    = scaleRows (W9 (F := Ideal) m ρ c (Proc.devRef .tc main_v51)) (W9 (F := Ideal) m ρ c (Proc.devRef .tc main_v30)) :=
  (W10_arr (F := Ideal) m ρ c 2).trans (Scale1.final (V9 (F := Ideal) m ρ) c)

/-- The weights are an input window of the region: it leaves them as it found them. -/
theorem wts_W10 : W10 (F := Ideal) m ρ c (Proc.devRef .tc main_v30) = W9 (F := Ideal) m ρ c (Proc.devRef .tc main_v30) :=
  (W10_arr (F := Ideal) m ρ c 1).trans (((dat1 (V9 (F := Ideal) m ρ) c).arrAt_in 1 rfl _).trans (A_eq1 (V9 (F := Ideal) m ρ) c 1))

/-- The index vectors are none of the region's arrays. -/
theorem src_W10 : W10 (F := Ideal) m ρ c (Proc.devRef .tc main_v5) = W9 (F := Ideal) m ρ c (Proc.devRef .tc main_v5) :=
  W10_of_ne (F := Ideal) m ρ c main_v5 (by decide)
theorem dst_W10 : W10 (F := Ideal) m ρ c (Proc.devRef .tc main_v6) = W9 (F := Ideal) m ρ c (Proc.devRef .tc main_v6) :=
  W10_of_ne (F := Ideal) m ρ c main_v6 (by decide)

/-! ## Between region 1 and region 2: the rows hop 3 gathers -/

set_option maxHeartbeats 2000000 in
/-- The previous hop's messages are summed per target node, and the sums' rows are read at the edges' sources: the
    reference's own stage, once the region's output is known to be weight times row on the unpadded edges. -/
theorem gath_W11 : W11 (F := Ideal) m ρ c (Proc.devRef .tc main_v63) = val_main_v63 (F := Ideal) (a0 m c) (a1 m c) := by
  dsimp only [W11]
  have hout := out_W10 m ρ c
  rw [rows_W9 m ρ c, wts_W9 m ρ c] at hout
  have hs := (src_W10 m ρ c).trans (src_W9 m ρ c)
  have hd := (dst_W10 m ρ c).trans (dst_W9 m ρ c)
  generalize W10 (F := Ideal) m ρ c = U at hout hs hd ⊢
  after_results_simp
  rw [hout, hs, hd, Laws.hop_law _ _ _ _ _ _ _ _ Cert.ReferenceIdeal.Facts₀.bcast_S1700000_S1700000x1_0
    Cert.ReferenceIdeal.Facts₀.bcast_S1700000x1_S1700000x128_0_1]
  all_goals rfl

set_option maxHeartbeats 2000000 in
/-- Those rows, padded. -/
theorem rows_W12 : W12 (F := Ideal) m ρ c (Proc.devRef .tc main_v64)
    = padR (val_main_v63 (F := Ideal) (a0 m c) (a1 m c)) (sitofp (F := Ideal) .f32 (W11 (F := Ideal) m ρ c (Proc.devRef .tc main_c_17))) := by
  dsimp only [W12]
  have h := gath_W11 m ρ c
  generalize W11 (F := Ideal) m ρ c = U at h ⊢
  after_results_simp
  simp only [TRef.ofBuf, TRef.toBuf, cast_eq]
  rw [h]
  all_goals rfl

set_option maxHeartbeats 2000000 in
theorem wts_W12 : W12 (F := Ideal) m ρ c (Proc.devRef .tc main_v30) = padW (val_main_v29 (F := Ideal) (a1 m c)) (w0 m ρ c) := by
  refine Eq.trans ?_ ((wts_W10 m ρ c).trans (wts_W9 m ρ c))
  dsimp only [W12, W11]
  generalize W10 (F := Ideal) m ρ c = U
  after_results_simp

set_option maxHeartbeats 2000000 in
theorem src_W12 : W12 (F := Ideal) m ρ c (Proc.devRef .tc main_v5) = val_main_v5 (F := Ideal) (a1 m c) := by
  refine Eq.trans ?_ ((src_W10 m ρ c).trans (src_W9 m ρ c))
  dsimp only [W12, W11]
  generalize W10 (F := Ideal) m ρ c = U
  after_results_simp

set_option maxHeartbeats 2000000 in
theorem dst_W12 : W12 (F := Ideal) m ρ c (Proc.devRef .tc main_v6) = val_main_v6 (F := Ideal) (a1 m c) := by
  refine Eq.trans ?_ ((dst_W10 m ρ c).trans (dst_W9 m ρ c))
  dsimp only [W12, W11]
  generalize W10 (F := Ideal) m ρ c = U
  after_results_simp

/-! ## Region 2: its exit -/

/-- The region's output array is every entry row scaled by its weight (the region's own lemma at the entry contents). -/
theorem out_W13 : W13 (F := Ideal) m ρ c (Proc.devRef .tc main_v65)
    = scaleRows (W12 (F := Ideal) m ρ c (Proc.devRef .tc main_v64)) (W12 (F := Ideal) m ρ c (Proc.devRef .tc main_v30)) :=
  (W13_arr (F := Ideal) m ρ c 2).trans (Scale2.final (V12 (F := Ideal) m ρ) c)

/-- The weights are an input window of the region: it leaves them as it found them. -/
theorem wts_W13 : W13 (F := Ideal) m ρ c (Proc.devRef .tc main_v30) = W12 (F := Ideal) m ρ c (Proc.devRef .tc main_v30) :=
  (W13_arr (F := Ideal) m ρ c 1).trans (((dat2 (V12 (F := Ideal) m ρ) c).arrAt_in 1 rfl _).trans (A_eq2 (V12 (F := Ideal) m ρ) c 1))

/-- The index vectors are none of the region's arrays. -/
theorem src_W13 : W13 (F := Ideal) m ρ c (Proc.devRef .tc main_v5) = W12 (F := Ideal) m ρ c (Proc.devRef .tc main_v5) :=
  W13_of_ne (F := Ideal) m ρ c main_v5 (by decide)
theorem dst_W13 : W13 (F := Ideal) m ρ c (Proc.devRef .tc main_v6) = W12 (F := Ideal) m ρ c (Proc.devRef .tc main_v6) :=
  W13_of_ne (F := Ideal) m ρ c main_v6 (by decide)

/-! ## After the third hop: the propagated features, and the last region -/

set_option maxHeartbeats 2000000 in
/-- The third hop's messages summed per target node: the reference's propagated features. -/
theorem feat_W14 : W14 (F := Ideal) m ρ c (Proc.devRef .tc main_v69) = val_main_v68 (F := Ideal) (a0 m c) (a1 m c) := by
  dsimp only [W14]
  have hout := out_W13 m ρ c
  rw [rows_W12 m ρ c, wts_W12 m ρ c] at hout
  have hd := (dst_W13 m ρ c).trans (dst_W12 m ρ c)
  generalize W13 (F := Ideal) m ρ c = U at hout hd ⊢
  after_results_simp
  rw [hout, hd, Laws.hop_law _ _ _ _ _ _ _ _ Cert.ReferenceIdeal.Facts₀.bcast_S1700000_S1700000x1_0
    Cert.ReferenceIdeal.Facts₀.bcast_S1700000x1_S1700000x128_0_1]
  all_goals rfl

/-- The weight matrix is an input window of the last region and no host operation writes it: it is as launched. -/
theorem wmat_W14 : W14 (F := Ideal) m ρ c (Proc.devRef .tc main_arg2) = m ((c : Thread nD τ).loc main_arg2) :=
  ((W15_arr (F := Ideal) m ρ c 1).trans (((dat3 (V14 (F := Ideal) m ρ) c).arrAt_in 1 rfl _).trans (A_eq3 (V14 (F := Ideal) m ρ) c 1))).symm.trans
    (W15_main_arg2 (F := Ideal) m ρ c)
/-- The bias likewise. -/
theorem bias_W14 : W14 (F := Ideal) m ρ c (Proc.devRef .tc main_arg3) = m ((c : Thread nD τ).loc main_arg3) :=
  ((W15_arr (F := Ideal) m ρ c 2).trans (((dat3 (V14 (F := Ideal) m ρ) c).arrAt_in 2 rfl _).trans (A_eq3 (V14 (F := Ideal) m ρ) c 2))).symm.trans
    (W15_main_arg3 (F := Ideal) m ρ c)

/-- THE KERNEL'S RESULT: the returned array ends at the reference's result stage of the four argument arrays. -/
theorem result : W15 (F := Ideal) m ρ c (Proc.devRef .tc main_v70)
    = val_main_v73 (F := Ideal) (a0 m c) (a1 m c) (m ((c : Thread nD τ).loc main_arg2)) (m ((c : Thread nD τ).loc main_arg3)) := by
  have e : W15 (F := Ideal) m ρ c (Proc.devRef .tc main_v70)
      = affineRows (W14 (F := Ideal) m ρ c (Proc.devRef .tc main_v69)) (W14 (F := Ideal) m ρ c (Proc.devRef .tc main_arg2))
          (W14 (F := Ideal) m ρ c (Proc.devRef .tc main_arg3)) :=
    (W15_arr (F := Ideal) m ρ c 3).trans (Linear.final (V14 (F := Ideal) m ρ) c)
  rw [e, feat_W14 m ρ c, wmat_W14 m ρ c, bias_W14 m ρ c]
  exact Laws.affine_law _ _ _ _

end Cert.Sgc.Hops

end
-- ==== Proof.lean ====
/-
  Simplified graph convolution: three hops of normalised-adjacency propagation, then a linear map, as a Pallas kernel
  against its jnp reference, equal over the extended reals.
  Both programs prepare the graph with the same host operations (self loops appended, the degree as a scatter-add of ones,
  the edge weight `deg(src)^(-1/2) · deg(dst)^(-1/2)` where the degree is positive) and propagate with the same gather and
  scatter-add. They differ in two places. In a hop the reference multiplies the broadcast weights by the gathered rows,
  `w[e] · h[src e, j]`, on the host; the kernel pads rows and weights to a whole number of 4096-row blocks, computes
  `h[src e, j] · w[e]` block by block in a region, and cuts the padding off: the padding never reaches a kept entry, and the
  product commutes on the extended reals, so no finiteness is used. In the last stage the reference contracts the features
  with the transposed weight matrix and adds the broadcast bias; the kernel does so in blocks of 2000 rows by a matrix
  product into a zero accumulator after a change of float format, which at the exact instance is the identity and a plain sum.
  The three frames: the kernel's two are the generated frame certificates of its four regions among the host stretches;
  the reference's is its run with the result dropped. Nothing was rewritten by the idealization, so `preserves` is trivial.
-/
import proofs.«150529_j27504970563787_1_alg».proof.Defs
import proofs.«150529_j27504970563787_1_alg».proof.Proof.Gen.Kernel
import proofs.«150529_j27504970563787_1_alg».proof.Proof.Gen.Kernel.Frame
import proofs.«150529_j27504970563787_1_alg».proof.Proof.Gen.KernelIdeal
import proofs.«150529_j27504970563787_1_alg».proof.Proof.Gen.KernelIdeal.Frame
import proofs.«150529_j27504970563787_1_alg».proof.Proof.Gen.ReferenceIdeal
import proofs.«150529_j27504970563787_1_alg».proof.Proof.Gen.Pre_finite_inputs
import proofs.«150529_j27504970563787_1_alg».proof.Proof.KernelRun
import proofs.«150529_j27504970563787_1_alg».proof.Proof.RefRun
import proofs.«150529_j27504970563787_1_alg».proof.Proof.RefStages
import proofs.«150529_j27504970563787_1_alg».proof.Proof.StagesHops
import Idealize.ShloMosaic.Adequacy
import Idealize.ShloMosaic.Init

noncomputable section

namespace Cert.Proof

open Idealize.ShloMosaic Idealize.ShloMosaic.TcCoe Idealize.SL.Sem

/-- The kernel as printed runs, and leaves its arguments as launched: the generated frame of its four regions. -/
theorem frame_kernel : Cert.frame_Kernel := fun m ρ _ => Cert.Kernel.Gen.frame m ρ

/-- The same for the kernel read at the exact instance. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs run, and the kernel's returned array is the
    reference's: the kernel's ends at the fold's last contents of `main_v70`, which is the reference's result stage of the
    kernel's arguments (`Hops.result`); the reference's run ends at that stage of ITS arguments, which are the same. -/
theorem algebraic : Cert.algebraic_KernelIdeal_ReferenceIdeal := by
  intro m ρ m' ρ' _ hagree
  refine ⟨fun c => Cert.KernelIdeal.Gen.W15 (F := Ideal) m ρ c (Proc.devRef .tc Cert.KernelIdeal.main_v70),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, (hagree c).1, (hagree c).2.1, (hagree c).2.2.1, (hagree c).2.2.2]
  exact (Cert.Sgc.Hops.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
